-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S1000000x16 : Shape := ⟨2, ![1000000, 16]⟩
abbrev S64x16 : Shape := ⟨2, ![64, 16]⟩
abbrev S1000000 : Shape := ⟨1, ![1000000]⟩
abbrev S96x64 : Shape := ⟨2, ![96, 64]⟩
abbrev S64 : Shape := ⟨1, ![64]⟩
abbrev S16 : Shape := ⟨1, ![16]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S64x16 : S_.BroadcastsInDim S64x16 (![] : Fin 0 → Fin S64x16.rank)
  reducesTo_S64x16_S_d0_1 : S64x16.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg4 : IVec S1000000 32) (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_c_14 : IVec S_ 32 := constantI S_ 32 0#32
  let main_v39 : IVec S1000000 32 := broadcastInDim S1000000 ![] bcast_S_S1000000 main_c_14
  let main_v40 : IVec S1000000 1 := cmpi .sge main_arg4 main_v39
  let main_c_15 : IVec S_ 1 := constantI S_ 1 1#1
  let main_v41 : IVec S_ 1 := (fun x v => Host.reduce IntOp.andi x v reducesTo_S1000000_S_d0 h_S_) main_v40 main_c_15
  let main_v42 : IVec S_ 1 := andi main_v38 main_v41
  let main_c_16 : IVec S_ 32 := constantI S_ 32 64#32
  let main_v43 : IVec S1000000 32 := broadcastInDim S1000000 ![] bcast_S_S1000000 main_c_16
  let main_v44 : IVec S1000000 1 := cmpi .slt main_arg4 main_v43
  let main_c_17 : IVec S_ 1 := constantI S_ 1 1#1
  let main_v45 : IVec S_ 1 := (fun x v => Host.reduce IntOp.andi x v reducesTo_S1000000_S_d0 h_S_) main_v44 main_c_17
  let main_v46 : IVec S_ 1 := andi main_v42 main_v45
  main_v46

def fn_part1 {F : FTy → Type} [FloatOps F] (main_arg4 : IVec S1000000 32) (main_arg5 : FVec F S96x64 .f32) (main_arg6 : FVec F S64 .f32) (main_arg7 : FVec F S64x16 .f32) (main_arg8 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S96x64 .f32 := Host.absf main_arg5
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg4 main_arg8 main_v33

def fn {F : FTy → Type} [FloatOps F] (main_arg0 : FVec F S1000000x32 .f32) (main_arg1 : FVec F S1000000x32 .f32) (main_arg2 : FVec F S1000000x16 .f32) (main_arg3 : FVec F S64x16 .f32) (main_arg4 : IVec S1000000 32) (main_arg5 : FVec F S96x64 .f32) (main_arg6 : FVec F S64 .f32) (main_arg7 : FVec F S64x16 .f32) (main_arg8 : FVec F S16 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1000000x16 .f32 := Host.absf main_arg2
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_arg8 main_v13 main_v16
-- ==== Kernel.lean ====
abbrev S1000000x32 : Shape := ⟨2, ![1000000, 32]⟩
abbrev S1000000x16 : Shape := ⟨2, ![1000000, 16]⟩
abbrev S64x16 : Shape := ⟨2, ![64, 16]⟩
abbrev S1000000 : Shape := ⟨1, ![1000000]⟩
abbrev S96x64 : Shape := ⟨2, ![96, 64]⟩
abbrev S64 : Shape := ⟨1, ![64]⟩
abbrev S16 : Shape := ⟨1, ![16]⟩
abbrev S1000000x1 : Shape := ⟨2, ![1000000, 1]⟩
abbrev S32x64 : Shape := ⟨2, ![32, 64]⟩
abbrev S16x64 : Shape := ⟨2, ![16, 64]⟩
abbrev S64x64 : Shape := ⟨2, ![64, 64]⟩
abbrev S1x64 : Shape := ⟨2, ![1, 64]⟩
abbrev S1x16 : Shape := ⟨2, ![1, 16]⟩
abbrev S4000x32 : Shape := ⟨2, ![4000, 32]⟩
abbrev S4000x16 : Shape := ⟨2, ![4000, 16]⟩
abbrev S4000x1 : Shape := ⟨2, ![4000, 1]⟩
abbrev S4000x64 : Shape := ⟨2, ![4000, 64]⟩

abbrev nBuf : Space → Nat
  | .hbm => 18
  | .vmem => 17
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S1000000x16, .f32⟩
  | .hbm, ⟨3, _⟩ => ⟨S64x16, .f32⟩
  | .hbm, ⟨4, _⟩ => ⟨S1000000, .i32⟩
  | .hbm, ⟨5, _⟩ => ⟨S96x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1000000x1, .i32⟩
  | .hbm, ⟨10, _⟩ => ⟨S32x64, .f32⟩
  | .hbm, ⟨11, _⟩ => ⟨S32x64, .f32⟩
  | .hbm, ⟨12, _⟩ => ⟨S16x64, .f32⟩
  | .hbm, ⟨13, _⟩ => ⟨S16x64, .f32⟩
  | .hbm, ⟨14, _⟩ => ⟨S64x64, .f32⟩
  | .hbm, ⟨15, _⟩ => ⟨S1x64, .f32⟩
  | .hbm, ⟨16, _⟩ => ⟨S1x16, .f32⟩
  | .hbm, ⟨17, _⟩ => ⟨S1000000x16, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x16, .f32⟩
  | .local _ .vmem, ⟨5, _⟩ => ⟨S4000x16, .f32⟩
  | .local _ .vmem, ⟨6, _⟩ => ⟨S4000x1, .i32⟩
  | .local _ .vmem, ⟨7, _⟩ => ⟨S4000x1, .i32⟩
  | .local _ .vmem, ⟨8, _⟩ => ⟨S32x64, .f32⟩
  | .local _ .vmem, ⟨9, _⟩ => ⟨S32x64, .f32⟩
  | .local _ .vmem, ⟨10, _⟩ => ⟨S16x64, .f32⟩
  | .local _ .vmem, ⟨11, _⟩ => ⟨S64x64, .f32⟩
  | .local _ .vmem, ⟨12, _⟩ => ⟨S1x64, .f32⟩
  | .local _ .vmem, ⟨13, _⟩ => ⟨S64x16, .f32⟩
  | .local _ .vmem, ⟨14, _⟩ => ⟨S1x16, .f32⟩
  | .local _ .vmem, ⟨15, _⟩ => ⟨S4000x16, .f32⟩
  | .local _ .vmem, ⟨16, _⟩ => ⟨S4000x16, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1000000_S1000000x1 : S1000000.ShapeCasts S1000000x1
  slices_S96x64_S32x64_0_0 : S96x64.Slices ![0, 0] S32x64
  slices_S96x64_S32x64_32_0 : S96x64.Slices ![32, 0] S32x64
  slices_S96x64_S16x64_64_0 : S96x64.Slices ![64, 0] S16x64
  slices_S96x64_S16x64_80_0 : S96x64.Slices ![80, 0] S16x64
  shapeCasts_S64_S1x64 : S64.ShapeCasts S1x64
  shapeCasts_S16_S1x16 : S16.ShapeCasts S1x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x64_d1_w32 : S4000x64.Iotas .tc 32 [1]
  broadcasts_S4000x1_S4000x64 : S4000x1.Broadcasts S4000x64
  natLt_1_32 : 1 < 32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x32_S4000x32_0_0 : ∀ a, (![0, 0] : Fin 2 → Nat) a + S4000x32.size a ≤ S4000x32.size a
  h_S4000x32 : 0 < S4000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S4000x16_S4000x16_0_0 : ∀ a, (![0, 0] : Fin 2 → Nat) a + S4000x16.size a ≤ S4000x16.size a
  h_S4000x16 : 0 < S4000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  dot_S64x16_S16x64_S64x64_1_0_0_1_n_n_wf : DotDims.WF S64x16 S16x64 S64x64 [1] [0] [0] [1] [] []
  dot_S4000x64_S64x64_S4000x64_1_0_0_1_n_n_wf : DotDims.WF S4000x64 S64x64 S4000x64 [1] [0] [0] [1] [] []
  dot_S4000x32_S32x64_S4000x64_1_0_0_1_n_n_wf : DotDims.WF S4000x32 S32x64 S4000x64 [1] [0] [0] [1] [] []
  dot_S4000x16_S16x64_S4000x64_1_0_0_1_n_n_wf : DotDims.WF S4000x16 S16x64 S4000x64 [1] [0] [0] [1] [] []
  dot_S4000x64_S64x16_S4000x16_1_0_0_1_n_n_wf : DotDims.WF S4000x64 S64x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S1000000x32.size a
  hwx0_0 : ∀ i : grid0.Coords, EltTy.bits .f32 = 32 ∨ (Rect.block (s := S1000000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1000000x32.size a
  hwx0_1 : ∀ i : grid0.Coords, EltTy.bits .f32 = 32 ∨ (Rect.block (s := S1000000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S1000000x16.size a
  hwx0_2 : ∀ i : grid0.Coords, EltTy.bits .f32 = 32 ∨ (Rect.block (s := S1000000x16) S4000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1000000x1.size a
  hwx0_3 : ∀ i : grid0.Coords, EltTy.bits .i32 = 32 ∨ (Rect.block (s := S1000000x1) S4000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64.size a ≤ S16x64.size a
  hwx0_6 : ∀ i : grid0.Coords, EltTy.bits .f32 = 32 ∨ (Rect.block (s := S16x64) S16x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x16.size a ≤ S64x16.size a
  hwx0_9 : ∀ i : grid0.Coords, EltTy.bits .f32 = 32 ∨ (Rect.block (s := S64x16) S64x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x16.size a ≤ S1000000x16.size a
  hwx0_11 : ∀ i : grid0.Coords, EltTy.bits .f32 = 32 ∨ (Rect.block (s := S1000000x16) S4000x16.size (cc0_transform_11 i) (hinb0_11 i)).WholeWords (EltTy.packing .f32)

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S4000x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S1000000x16 : Shape := ⟨2, ![1000000, 16]⟩
abbrev S64x16 : Shape := ⟨2, ![64, 16]⟩
abbrev S1000000 : Shape := ⟨1, ![1000000]⟩
abbrev S96x64 : Shape := ⟨2, ![96, 64]⟩
abbrev S64 : Shape := ⟨1, ![64]⟩
abbrev S16 : Shape := ⟨1, ![16]⟩
abbrev S_ : Shape := ⟨0, ![]⟩
abbrev S1000000x1 : Shape := ⟨2, ![1000000, 1]⟩
abbrev S1000000x96 : Shape := ⟨2, ![1000000, 96]⟩
abbrev S1000000x64 : Shape := ⟨2, ![1000000, 64]⟩
abbrev S1x64 : Shape := ⟨2, ![1, 64]⟩
abbrev S1x16 : Shape := ⟨2, ![1, 16]⟩

abbrev nBuf : Space → Nat
  | .hbm => 30
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S1000000x16, .f32⟩
  | .hbm, ⟨3, _⟩ => ⟨S64x16, .f32⟩
  | .hbm, ⟨4, _⟩ => ⟨S1000000, .i32⟩
  | .hbm, ⟨5, _⟩ => ⟨S96x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x16, .f32⟩
  | .hbm, ⟨18, _⟩ => ⟨S1000000x96, .f32⟩
  | .hbm, ⟨19, _⟩ => ⟨S1000000x64, .f32⟩
  | .hbm, ⟨20, _⟩ => ⟨S1x64, .f32⟩
  | .hbm, ⟨21, _⟩ => ⟨S1000000x64, .f32⟩
  | .hbm, ⟨22, _⟩ => ⟨S1000000x64, .f32⟩
  | .hbm, ⟨23, _⟩ => ⟨S_, .f32⟩
  | .hbm, ⟨24, _⟩ => ⟨S1000000x64, .f32⟩
  | .hbm, ⟨25, _⟩ => ⟨S1000000x64, .f32⟩
  | .hbm, ⟨26, _⟩ => ⟨S1000000x16, .f32⟩
  | .hbm, ⟨27, _⟩ => ⟨S1x16, .f32⟩
  | .hbm, ⟨28, _⟩ => ⟨S1000000x16, .f32⟩
  | .hbm, ⟨29, _⟩ => ⟨S1000000x16, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x32_S1000000x32_S1000000x16_S1000000x16_S1000000x96_d1 : Shape.Concatenates [S1000000x32, S1000000x32, S1000000x16, S1000000x16] S1000000x96 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  gather_S64x16_S1000000x1_S1000000x16_1_0_n_n_0_1_116_wf : GatherDims.WF S64x16 S1000000x1 S1000000x16 [1] [0] [] [0] [] 1 ![1, 16]
  dot_S1000000x96_S96x64_S1000000x64_1_0_0_1_n_n_wf : DotDims.WF S1000000x96 S96x64 S1000000x64 [1] [0] [0] [1] [] []
  dot_S1000000x64_S64x16_S1000000x16_1_0_0_1_n_n_wf : DotDims.WF S1000000x64 S64x16 S1000000x16 [1] [0] [0] [1] [] []

variable [Facts₀]

def gather_S64x16_S1000000x1_S1000000x16_1_0_n_n_0_1_116 : GatherDims S64x16 S1000000x1 S1000000x16 where
  offsetDims := [1]
  collapsedSliceDims := [0]
  operandBatchingDims := []
  startIndicesBatchingDims := []
  startIndexMap := [0]
  indexVectorDim := 1
  sliceSizes := ![1, 16]
  wf := gather_S64x16_S1000000x1_S1000000x16_1_0_n_n_0_1_116_wf
def dot_S1000000x96_S96x64_S1000000x64_1_0_0_1_n_n : DotDims S1000000x96 S96x64 S1000000x64 where
  lhsContracting := [1]
  rhsContracting := [0]
  lhsNonContracting := [0]
  rhsNonContracting := [1]
  lhsBatch := []
  rhsBatch := []
  wf := dot_S1000000x96_S96x64_S1000000x64_1_0_0_1_n_n_wf
def dot_S1000000x64_S64x16_S1000000x16_1_0_0_1_n_n : DotDims S1000000x64 S64x16 S1000000x16 where
  lhsContracting := [1]
  rhsContracting := [0]
  lhsNonContracting := [0]
  rhsNonContracting := [1]
  lhsBatch := []
  rhsBatch := []
  wf := dot_S1000000x64_S64x16_S1000000x16_1_0_0_1_n_n_wf

class Facts : Prop extends Facts₀ where

variable [Facts]
-- ==== Proof.Spec.lean ====
/-
  The edge network as one function of its argument arrays.

  Every edge `e` carries two node feature rows `src e`, `dest e` (32 numbers each), an edge feature row `edge e`
  (16 numbers) and the number `batch e` of the graph it lies in; graph `g` carries a condition row `u g` (16 numbers).
  The network joins the four rows into 96 numbers, applies an affine map to 64 hidden units, takes the positive part,
  and applies an affine map to 16 outputs:

      out e o = Σ n, max (pre e n) 0 * W2 n o + b2 o
      pre e n = Σ k<32, src e k * W1 k n + Σ k<32, dest e k * W1 (32+k) n + Σ k<16, edge e k * W1 (64+k) n
                + Σ k<16, u (batch e) k * W1 (80+k) n + b1 n

  The sums are over the extended reals, where addition is commutative and associative and `0 * x = 0`, `1 * x = x`
  for every `x`: nothing below needs the inputs to be finite.
-/
import Idealize.ShloMosaic.PureOps.Ideal
import Idealize.ShloMosaic.Lib.ValueIdx

noncomputable section

open scoped BigOperators

namespace EdgeNet

open Idealize.ShloMosaic Idealize.ShloMosaic.ValueIdx

/-! ## The graph number of an edge, as a row of the condition table -/

/-- A graph number is IN RANGE when, read as a signed 32-bit integer, it is one of the table's 64 rows. -/
def InRange (b : BitVec 32) : Prop := 0 ≤ b.toInt ∧ b.toInt < 64

/-- The row of the condition table a graph number names (its value, for a number in range). -/
def rowOf (b : BitVec 32) : Fin 64 := ⟨b.toNat % 64, Nat.mod_lt _ (by decide)⟩

/-- A number in range is below 64 as an unsigned word too … -/
theorem InRange.toNat_lt {b : BitVec 32} (h : InRange b) : b.toNat < 64 := by
  obtain ⟨h0, h1⟩ := h
  rw [BitVec.toInt_eq_toNat_cond] at h0 h1
  split at h0 <;> omega

/-- … so it is the word of its row. -/
theorem InRange.eq_ofNat {b : BitVec 32} (h : InRange b) : b = BitVec.ofNat 32 (rowOf b).val := by
  apply BitVec.eq_of_toNat_eq
  have := h.toNat_lt
  simp only [rowOf, BitVec.toNat_ofNat]
  omega

theorem InRange.rowOf_val {b : BitVec 32} (h : InRange b) : (rowOf b).val = b.toNat := by
  have := h.toNat_lt
  simp only [rowOf]
  omega

/-! ## The network -/

section Net

variable (src dest : FVec Ideal ⟨2, ![1000000, 32]⟩ .f32) (edge : FVec Ideal ⟨2, ![1000000, 16]⟩ .f32)
  (u : FVec Ideal ⟨2, ![64, 16]⟩ .f32) (batch : IVec ⟨1, ![1000000]⟩ 32)
  (W1 : FVec Ideal ⟨2, ![96, 64]⟩ .f32) (b1 : FVec Ideal ⟨1, ![64]⟩ .f32)
  (W2 : FVec Ideal ⟨2, ![64, 16]⟩ .f32) (b2 : FVec Ideal ⟨1, ![16]⟩ .f32)

/-- The four groups of rows of the first weight matrix: those that meet `src`, `dest`, `edge` and the condition row. -/
abbrev wSrc (k : Fin 32) : Fin 96 := ⟨k.val, by omega⟩
abbrev wDest (k : Fin 32) : Fin 96 := ⟨32 + k.val, by omega⟩
abbrev wEdge (k : Fin 16) : Fin 96 := ⟨64 + k.val, by omega⟩
abbrev wCond (k : Fin 16) : Fin 96 := ⟨80 + k.val, by omega⟩

/-- What the condition row `r` contributes to hidden unit `n`. -/
def condTerm (r : Fin 64) (n : Fin 64) : EReal := ∑ k : Fin 16, u (ix2 r k) * W1 (ix2 (wCond k) n)

/-- Hidden unit `n` of edge `e` before the positive part, the edge's graph being row `r`. -/
def pre (e : Fin 1000000) (r : Fin 64) (n : Fin 64) : EReal :=
  ((((∑ k : Fin 32, src (ix2 e k) * W1 (ix2 (wSrc k) n)) + ∑ k : Fin 32, dest (ix2 e k) * W1 (ix2 (wDest k) n))
      + ∑ k : Fin 16, edge (ix2 e k) * W1 (ix2 (wEdge k) n)) + condTerm u W1 r n) + b1 (ix1 n)

/-- Output `o` of edge `e`, the edge's graph being row `r`. -/
def outAt (e : Fin 1000000) (r : Fin 64) (o : Fin 16) : EReal :=
  (∑ n : Fin 64, max (pre src dest edge u W1 b1 e r n) 0 * W2 (ix2 n o)) + b2 (ix1 o)

/-- THE NETWORK: the output array as one function of the nine argument arrays. -/
def net : FVec Ideal ⟨2, ![1000000, 16]⟩ .f32 :=
  fun i => outAt src dest edge u W1 b1 W2 b2 (i 0) (rowOf (batch (ix1 (i 0)))) (i 1)

theorem net_apply (e : Fin 1000000) (o : Fin 16) :
    net src dest edge u batch W1 b1 W2 b2 (ix2 e o) = outAt src dest edge u W1 b1 W2 b2 e (rowOf (batch (ix1 e))) o := rfl

end Net

/-! ## Two laws of finite sums over the extended reals -/

/-- A sum against the indicator of one index picks that index's term. -/
theorem sum_indicator_mul (r : Fin 64) (X : Fin 64 → EReal) :
    ∑ j : Fin 64, (if j = r then (1 : EReal) else 0) * X j = X r := by
  rw [Finset.sum_eq_single r]
  · rw [if_pos rfl, one_mul]
  · intro j _ hj
    rw [if_neg hj, zero_mul]
  · intro h
    exact absurd (Finset.mem_univ r) h

/-- A sum over 96 indices is the sum over its four groups 32 + 32 + 16 + 16, taken in order. -/
theorem sum_four_groups (f : Fin 96 → EReal) :
    ∑ k : Fin 96, f k = (((∑ k : Fin 32, f (wSrc k)) + ∑ k : Fin 32, f (wDest k)) + ∑ k : Fin 16, f (wEdge k))
      + ∑ k : Fin 16, f (wCond k) := by
  have h := Fin.sum_univ_add (M := EReal) (a := 80) (b := 16) f
  have h80 := Fin.sum_univ_add (M := EReal) (a := 64) (b := 16) (fun i : Fin 80 => f (Fin.castAdd 16 i))
  have h64 := Fin.sum_univ_add (M := EReal) (a := 32) (b := 32) (fun i : Fin 64 => f (Fin.castAdd 16 (Fin.castAdd 16 i)))
  rw [h, h80, h64]
  rfl

end EdgeNet

end
-- ==== Proof.PreDecode.lean ====
/-
  What the precondition says of the graph numbers.

  The precondition is a conjunction of "all" tests; its last two are `batch ≥ 0` everywhere and `batch < 64`
  everywhere, compared as signed integers. So every edge's graph number is in range.
-/
import proofs.«425293_j32169305047409_3_alg».proof.Pre_finite_inputs
import proofs.«425293_j32169305047409_3_alg».proof.Proof.Spec
import Idealize.ShloMosaic.Lib.ReduceAll

noncomputable section

namespace EdgeNet

open Idealize.ShloMosaic Idealize.ShloMosaic.ValueIdx Cert.Pre_finite_inputs

instance : Subsingleton S_.Idx := ⟨fun a b => funext fun d => d.elim0⟩

/-- Under the precondition every edge's graph number is one of the 64 rows. -/
theorem batch_inRange {F : FTy → Type} [FloatOps F] [Cert.Pre_finite_inputs.Facts]
    (a0 a1 : FVec F S1000000x32 .f32) (a2 : FVec F S1000000x16 .f32) (a3 : FVec F S64x16 .f32) (a4 : IVec S1000000 32)
    (a5 : FVec F S96x64 .f32) (a6 : FVec F S64 .f32) (a7 : FVec F S64x16 .f32) (a8 : FVec F S16 .f32)
    (h : Cert.Pre_finite_inputs.fn (F := F) a0 a1 a2 a3 a4 a5 a6 a7 a8 = fun _ => 1#1) (e : Fin 1000000) :
    InRange (a4 (ix1 e)) := by
  have h0 := congrFun h ix0
  dsimp only [Cert.Pre_finite_inputs.fn, Cert.Pre_finite_inputs.fn_part1, Cert.Pre_finite_inputs.fn_part2] at h0
  obtain ⟨h1, hlt⟩ := IntOp.andi_eq_one.mp h0
  obtain ⟨_, hge⟩ := IntOp.andi_eq_one.mp h1
  have g := Host.reduce_andi_all _ _ _ _ _ hge (ix1 e)
  have l := Host.reduce_andi_all _ _ _ _ _ hlt (ix1 e)
  have g' : (0#32 : BitVec 32).toInt ≤ (a4 (ix1 e)).toInt := IntOp.cmpi_sge.mp g
  have l' : (a4 (ix1 e)).toInt < (64#32 : BitVec 32).toInt := IntOp.cmpi_slt.mp l
  have e0 : (0#32 : BitVec 32).toInt = 0 := by decide
  have e64 : (64#32 : BitVec 32).toInt = 64 := by decide
  rw [e0] at g'
  rw [e64] at l'
  exact ⟨g', l'⟩

end EdgeNet

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Words.lean ====
/-
  A graph number in range, as the two programs read it.

  One program clamps the number into `[0, 63]` and compares it with each of the 64 row numbers, which gives the
  indicator of the row as a vector of zeros and one one. The other adds 64 to a negative number, and then clamps the
  result into `[0, 63]` when it reads the table. On a number already in `[0, 63]` neither does anything: both name the
  row `rowOf b`.
-/
import proofs.«425293_j32169305047409_3_alg».proof.Proof.Spec
import proofs.«425293_j32169305047409_3_alg».proof.Proof.LibRowOps

noncomputable section

namespace EdgeNet

open Idealize.ShloMosaic Idealize.ShloMosaic.ValueIdx

/-- Read signed, a number in range is its unsigned value. -/
theorem InRange.toInt_eq {b : BitVec 32} (h : InRange b) : b.toInt = (b.toNat : Int) := by
  have := h.toNat_lt
  rw [BitVec.toInt_eq_toNat_cond, if_pos (by omega)]

/-- Clamping a number in range into `[0, 63]` leaves it as it is. -/
theorem clamp_eq {b : BitVec 32} (h : InRange b) : IntOp.minsi 63#32 (IntOp.maxsi 0#32 b) = b := by
  obtain ⟨h0, h1⟩ := h
  have e0 : (0#32 : BitVec 32).toInt = 0 := by decide
  have e63 : (63#32 : BitVec 32).toInt = 63 := by decide
  have hmax : IntOp.maxsi 0#32 b = b := by
    unfold IntOp.maxsi
    rw [if_neg]
    simp only [BitVec.slt, e0, decide_eq_true_eq]
    omega
  rw [hmax]
  unfold IntOp.minsi
  rw [if_neg]
  simp only [BitVec.slt, e63, decide_eq_true_eq]
  omega

/-- The indicator of the row, one entry: row number `j` compared with a number in range, widened and converted, is
    `1` at the number's row and `0` at every other. -/
theorem indicator_eq {b : BitVec 32} (h : InRange b) (j : Fin 64) :
    FloatOps.sitofp (F := Ideal) .f32 ((IntOp.cmpi .eq (BitVec.ofNat 32 j.val) b).setWidth 32)
      = if j = rowOf b then (1 : EReal) else 0 := by
  show (((((IntOp.cmpi .eq (BitVec.ofNat 32 j.val) b).setWidth 32).toInt : Int) : ℝ) : EReal) = _
  by_cases hj : j = rowOf b
  · rw [if_pos hj, hj, ← h.eq_ofNat]
    have : IntOp.cmpi .eq b b = 1#1 := by simp [IntOp.cmpi]
    rw [this]
    have : ((1#1 : BitVec 1).setWidth 32).toInt = 1 := by decide
    rw [this]
    norm_num
  · rw [if_neg hj]
    have hne : BitVec.ofNat 32 j.val ≠ b := by
      intro he
      apply hj
      apply Fin.ext
      rw [h.rowOf_val, ← he, BitVec.toNat_ofNat]
      have := j.isLt
      omega
    have hb : (BitVec.ofNat 32 j.val == b) = false := beq_eq_false_iff_ne.mpr hne
    have : IntOp.cmpi .eq (BitVec.ofNat 32 j.val) b = 0#1 := by simp [IntOp.cmpi, hb]
    rw [this]
    have : ((0#1 : BitVec 1).setWidth 32).toInt = 0 := by decide
    rw [this]
    norm_num

/-- Adding 64 to a negative number and then clamping into `[0, 63]` reads the row of a number in range. -/
theorem wrap_row {b : BitVec 32} (h : InRange b) :
    RowOps.clampRow 64 (by decide) (Scalar.select (IntOp.cmpi .slt b 0#32) (IntOp.addi b 64#32) b) = rowOf b := by
  have e0 : (0#32 : BitVec 32).toInt = 0 := by decide
  have hlt : IntOp.cmpi .slt b 0#32 = 0#1 := by
    have : b.slt 0#32 = false := by
      simp only [BitVec.slt, e0, decide_eq_false_iff_not]
      have := h.1
      omega
    simp [IntOp.cmpi, this]
  rw [hlt]
  have hsel : Scalar.select (0#1) (IntOp.addi b 64#32) b = b := if_neg (by decide)
  rw [hsel]
  apply Fin.ext
  show min b.toInt.toNat (64 - 1) = (rowOf b).val
  rw [h.rowOf_val, h.toInt_eq]
  have := h.toNat_lt
  omega

end EdgeNet

end
-- ==== Proof.RefValue.lean ====
/-
  The reference program computes the network.

  The reference reads the graph number of each edge, adds 64 to a negative one, gathers that row of the condition
  table (clamped into the table), joins the four feature rows of the edge into one row of 96 numbers, and applies the two
  layers. On graph numbers in range the gathered row is row `rowOf (batch e)`; a sum over the 96 joined numbers is the
  sum of its four groups; the rest is the network's definition read off stage by stage.
-/
import proofs.«425293_j32169305047409_3_alg».proof.Proof.Gen.ReferenceIdeal.Read
import proofs.«425293_j32169305047409_3_alg».proof.Proof.Words
import Idealize.ShloMosaic.Lib.Pipeline.Value

noncomputable section

open scoped BigOperators

namespace EdgeNet.Ref

open Cert.ReferenceIdeal Cert.ReferenceIdeal.Gen Cert.ReferenceIdeal.Read Idealize.ShloMosaic Idealize.ShloMosaic.ValueIdx EdgeNet

variable (x0 x1 : FVec Ideal S1000000x32 .f32) (x2 : FVec Ideal S1000000x16 .f32) (x3 : FVec Ideal S64x16 .f32)
  (x4 : IVec S1000000 32) (x5 : FVec Ideal S96x64 .f32) (x6 : FVec Ideal S64 .f32) (x7 : FVec Ideal S64x16 .f32)
  (x8 : FVec Ideal S16 .f32)

/-! ## The gathered condition rows -/

/-- The start index of edge `e`: its graph number, plus 64 when negative. -/
theorem start_apply (e : Fin 1000000) :
    val_main_v5 (F := Ideal) x4 (ix2 e 0)
      = Scalar.select (IntOp.cmpi .slt (x4 (ix1 e)) 0#32) (IntOp.addi (x4 (ix1 e)) 64#32) (x4 (ix1 e)) := by
  have hi : idx_main_v5 (ix2 e (0 : Fin 1)) = ix1 e := funext fun a => Fin.ext (by match a with | ⟨0, _⟩ => rfl)
  rw [val_main_v5_apply, val_main_v4_apply, val_main_v1_apply, val_main_v3_apply, val_main_v0_apply, val_main_v2_apply,
    val_main_c_apply, val_main_c_0_apply, hi]

/-- Row `e` of the gathered array is the condition row of edge `e`'s graph. -/
theorem gathered_apply (e : Fin 1000000) (k : Fin 16) (hb : InRange (x4 (ix1 e))) :
    val_main_v6 (F := Ideal) x3 x4 (ix2 e k) = x3 (ix2 (rowOf (x4 (ix1 e))) k) := by
  have h := RowOps.gather_apply (N := 64) (E := 1000000) (C := 16) (by decide)
    gather_S64x16_S1000000x1_S1000000x16_1_0_n_n_0_1_116_wf x3 (val_main_v5 (F := Ideal) x4) e k
  rw [start_apply, wrap_row hb] at h
  exact h

/-! ## The joined rows, group by group -/

/-- The four arrays the reference joins along the feature axis: 32 + 32 + 16 + 16 columns. -/
abbrev pieces : List ((s : Shape) × (s.Idx → Ideal .f32)) :=
  [⟨S1000000x32, x0⟩, ⟨S1000000x32, x1⟩, ⟨S1000000x16, x2⟩, ⟨S1000000x16, val_main_v6 (F := Ideal) x3 x4⟩]

theorem joined_src (e : Fin 1000000) (k : Fin 32) :
    val_main_v7 (F := Ideal) x0 x1 x2 x3 x4 (ix2 e (wSrc k)) = x0 (ix2 e k) := by
  unfold val_main_v7
  exact concatenate_apply_piece (t := S1000000x96) (1 : Fin 2) (pieces x0 x1 x2 x3 x4) concatenates_S1000000x32_S1000000x32_S1000000x16_S1000000x16_S1000000x96_d1
    (ix2 e (wSrc k)) 0 (show 0 < 4 by decide) S1000000x32 x0 rfl rfl 0 rfl (ix2 e k)
    (fun b hb => by
      match b with
      | ⟨0, _⟩ => rfl
      | ⟨1, _⟩ => exact absurd (Fin.ext rfl) hb)
    (Nat.zero_add _)

theorem joined_dest (e : Fin 1000000) (k : Fin 32) :
    val_main_v7 (F := Ideal) x0 x1 x2 x3 x4 (ix2 e (wDest k)) = x1 (ix2 e k) := by
  unfold val_main_v7
  exact concatenate_apply_piece (t := S1000000x96) (1 : Fin 2) (pieces x0 x1 x2 x3 x4) concatenates_S1000000x32_S1000000x32_S1000000x16_S1000000x16_S1000000x96_d1
    (ix2 e (wDest k)) 1 (show 1 < 4 by decide) S1000000x32 x1 rfl rfl 32 rfl (ix2 e k)
    (fun b hb => by
      match b with
      | ⟨0, _⟩ => rfl
      | ⟨1, _⟩ => exact absurd (Fin.ext rfl) hb)
    rfl

theorem joined_edge (e : Fin 1000000) (k : Fin 16) :
    val_main_v7 (F := Ideal) x0 x1 x2 x3 x4 (ix2 e (wEdge k)) = x2 (ix2 e k) := by
  unfold val_main_v7
  exact concatenate_apply_piece (t := S1000000x96) (1 : Fin 2) (pieces x0 x1 x2 x3 x4) concatenates_S1000000x32_S1000000x32_S1000000x16_S1000000x16_S1000000x96_d1
    (ix2 e (wEdge k)) 2 (show 2 < 4 by decide) S1000000x16 x2 rfl rfl 64 rfl (ix2 e k)
    (fun b hb => by
      match b with
      | ⟨0, _⟩ => rfl
      | ⟨1, _⟩ => exact absurd (Fin.ext rfl) hb)
    rfl

theorem joined_cond (e : Fin 1000000) (k : Fin 16) (hb : InRange (x4 (ix1 e))) :
    val_main_v7 (F := Ideal) x0 x1 x2 x3 x4 (ix2 e (wCond k)) = x3 (ix2 (rowOf (x4 (ix1 e))) k) := by
  rw [← gathered_apply x3 x4 e k hb]
  unfold val_main_v7
  exact concatenate_apply_piece (t := S1000000x96) (1 : Fin 2) (pieces x0 x1 x2 x3 x4) concatenates_S1000000x32_S1000000x32_S1000000x16_S1000000x16_S1000000x96_d1
    (ix2 e (wCond k)) 3 (show 3 < 4 by decide) S1000000x16 (val_main_v6 (F := Ideal) x3 x4) rfl rfl 80 rfl (ix2 e k)
    (fun b hb => by
      match b with
      | ⟨0, _⟩ => rfl
      | ⟨1, _⟩ => exact absurd (Fin.ext rfl) hb)
    rfl

/-! ## The first layer -/

/-- Hidden unit `n` of edge `e` before the positive part. -/
theorem pre_apply (e : Fin 1000000) (n : Fin 64) (hb : InRange (x4 (ix1 e))) :
    val_main_v11 (F := Ideal) x0 x1 x2 x3 x4 x5 x6 (ix2 e n) = pre x0 x1 x2 x3 x5 x6 e (rowOf (x4 (ix1 e))) n := by
  have hl : ∀ k : Fin 96, lidx_main_v8 (ix2 e n) k = ix2 e k := fun k => funext fun a => Fin.ext (by
    match a with
    | ⟨0, _⟩ => rfl
    | ⟨1, _⟩ => rfl)
  have hr : ∀ k : Fin 96, ridx_main_v8 (ix2 e n) k = ix2 k n := fun k => funext fun a => Fin.ext (by
    match a with
    | ⟨0, _⟩ => rfl
    | ⟨1, _⟩ => rfl)
  have hbias : idx_main_v9 (idx_main_v10 (ix2 e n)) = ix1 n := funext fun a => Fin.ext (by match a with | ⟨0, _⟩ => rfl)
  rw [val_main_v11_apply, val_main_v8_apply, val_main_v10_apply, val_main_v9_apply, hbias]
  simp only [hl, hr]
  rw [sum_four_groups (fun k => val_main_v7 (F := Ideal) x0 x1 x2 x3 x4 (ix2 e k) * x5 (ix2 k n))]
  simp only [joined_src, joined_dest, joined_edge, joined_cond x0 x1 x2 x3 x4 e _ hb]
  rfl

/-! ## The network -/

/-- THE REFERENCE'S RESULT is the network of its arguments, when every graph number is in range. -/
theorem result_eq_net (hb : ∀ e : Fin 1000000, InRange (x4 (ix1 e))) :
    val_main_v16 (F := Ideal) x0 x1 x2 x3 x4 x5 x6 x7 x8 = net x0 x1 x2 x3 x4 x5 x6 x7 x8 := by
  funext i
  obtain ⟨e, o, rfl⟩ : ∃ (e : Fin 1000000) (o : Fin 16), i = ix2 e o := ⟨i 0, i 1, eq_ix2 i⟩
  have hl : ∀ n : Fin 64, lidx_main_v13 (ix2 e o) n = ix2 e n := fun n => funext fun a => Fin.ext (by
    match a with
    | ⟨0, _⟩ => rfl
    | ⟨1, _⟩ => rfl)
  have hr : ∀ n : Fin 64, ridx_main_v13 (ix2 e o) n = ix2 n o := fun n => funext fun a => Fin.ext (by
    match a with
    | ⟨0, _⟩ => rfl
    | ⟨1, _⟩ => rfl)
  have hbias : idx_main_v14 (idx_main_v15 (ix2 e o)) = ix1 o := funext fun a => Fin.ext (by match a with | ⟨0, _⟩ => rfl)
  rw [net_apply, val_main_v16_apply, val_main_v13_apply, val_main_v15_apply, val_main_v14_apply, hbias]
  simp only [hl, hr, val_main_v12_apply, pre_apply x0 x1 x2 x3 x4 x5 x6 e _ (hb e), val_main_call0_v0_apply,
    val_main_call0_cst_apply, Ideal.addf_def, Ideal.maximumf_def, Ideal.ofBits_def, Ideal.ofBits_zero_f32]
  rfl

end EdgeNet.Ref

end
-- ==== Proof.LibPlainDot.lean ====
/-
  A plain matrix product read at an entry, over the extended reals.

  For `lhs : [M, K]` and `rhs : [K, N]` with the dimension numbers "contract axis 1 of the left operand with axis 0 of
  the right, no batch axis", entry `(p, q)` of the product is `Σ k, lhs (p, k) * rhs (k, q)`: for the matrix unit's
  product into a zero accumulator, and for the host's `dot_general`, whatever the precision attribute.
  The dimension numbers are a record whose last field is a proof, so every record with these six lists is `dims M K N wf`
  for its own `wf`.
-/
import Idealize.ShloMosaic.PureOps.Ideal.Laws
import Idealize.ShloMosaic.Lib.ValueIdx

noncomputable section

open scoped BigOperators

namespace PlainDot

open Idealize.ShloMosaic Idealize.ShloMosaic.ValueIdx

/-- The dimension numbers of `[M, K] × [K, N] → [M, N]`. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand is read in the output's row … -/
theorem lhs_row (i : (⟨2, ![M, N]⟩ : Shape).Idx) (q : (dims M K N wf).contr.Idx) :
    ((dims M K N wf).lhsIdx i q 0).val = (i 0).val := by
  unfold DotDims.lhsIdx
  rw [dif_neg (show ¬(0 : Fin 2) ∈ (dims M K N wf).lhsBatch from List.not_mem_nil),
    dif_pos (show (0 : Fin 2) ∈ (dims M K N wf).lhsNonContracting from List.mem_singleton.mpr rfl)]
  rfl
/-- … at the contraction index's column; -/
theorem lhs_col (i : (⟨2, ![M, N]⟩ : Shape).Idx) (q : (dims M K N wf).contr.Idx) :
    ((dims M K N wf).lhsIdx i q 1).val = (q ⟨0, Nat.one_pos⟩).val :=
  (dims M K N wf).lhsIdx_val_of_single rfl i q
/-- the right operand at the contraction index's row … -/
theorem rhs_row (i : (⟨2, ![M, N]⟩ : Shape).Idx) (q : (dims M K N wf).contr.Idx) :
    ((dims M K N wf).rhsIdx i q 0).val = (q ⟨0, Nat.one_pos⟩).val :=
  (dims M K N wf).rhsIdx_val_of_single rfl i q
/-- … in the output's column. -/
theorem rhs_col (i : (⟨2, ![M, N]⟩ : Shape).Idx) (q : (dims M K N wf).contr.Idx) :
    ((dims M K N wf).rhsIdx i q 1).val = (i 1).val := by
  unfold DotDims.rhsIdx
  rw [dif_neg (show ¬(1 : Fin 2) ∈ (dims M K N wf).rhsBatch from List.not_mem_nil),
    dif_pos (show (1 : Fin 2) ∈ (dims M K N wf).rhsNonContracting from List.mem_singleton.mpr rfl)]
  rfl

/-- The sum over the contraction index, re-indexed by its one coordinate. -/
theorem sum_contr {φ₁ φ₂ : FTy} (lhs : FVec Ideal ⟨2, ![M, K]⟩ φ₁) (rhs : FVec Ideal ⟨2, ![K, N]⟩ φ₂) (p : Fin M) (q : Fin N) :
    ∑ k : (dims M K N wf).contr.Idx, lhs ((dims M K N wf).lhsIdx (ix2 p q) k) * rhs ((dims M K N wf).rhsIdx (ix2 p q) k)
      = ∑ k : Fin K, lhs (ix2 p k) * rhs (ix2 k q) := by
  rw [← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE MATRIX UNIT'S PRODUCT into a zero accumulator, entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (dims M K N wf) prec lhs rhs (constant ⟨2, ![M, N]⟩ .f32 0x00000000#32) (ix2 p q)
      = ∑ k : Fin K, lhs (ix2 p k) * rhs (ix2 k q) := by
  show FloatOps.matmul (dims M K N wf) prec lhs rhs (constant ⟨2, ![M, N]⟩ .f32 0x00000000#32) (ix2 p q) = _
  rw [Ideal.matmul_constant_zero_apply]
  exact sum_contr wf lhs rhs p q

/-- THE HOST'S PRODUCT, entry `(p, q)`. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (dims M K N wf) prec lhs rhs (ix2 p q) = ∑ k : Fin K, lhs (ix2 p k) * rhs (ix2 k q) := by
  show FloatOps.dotGeneral (dims M K N wf) prec .single lhs rhs (ix2 p q) = _
  rw [Ideal.dotGeneral_apply]
  exact sum_contr wf lhs rhs p q

end

end PlainDot

end
-- ==== Proof.KernelBlock.lean ====
/-
  One block of 4000 edges: what the body computes, entry by entry.

  The body builds, for each edge of the block, the indicator of its graph's row among the 64 rows, and multiplies the
  indicator matrix with the table `T = u · W1[80:96]` (computed before the grid): a sum against an indicator picks one
  term, so that product is row `rowOf (batch e)` of `T`. It adds the three products of the edge's own feature rows with
  their groups of rows of `W1` and the bias, takes the positive part, and applies the second layer.
-/
import proofs.«425293_j32169305047409_3_alg».proof.Proof.Gen.KernelIdeal.Skeleton
import proofs.«425293_j32169305047409_3_alg».proof.Proof.Words
import proofs.«425293_j32169305047409_3_alg».proof.Proof.LibPlainDot
import Idealize.ShloMosaic.Lib.Pipeline.Value

noncomputable section

open scoped BigOperators

namespace EdgeNet.Block

open Cert.KernelIdeal Cert.KernelIdeal.Gen Idealize.ShloMosaic Idealize.ShloMosaic.ValueIdx EdgeNet

/-! ## The five products of the body, at an entry -/

theorem prod_node (x : FVec Ideal S4000x32 .f32) (w : FVec Ideal S32x64 .f32) (p : Fin 4000) (n : Fin 64) :
    matmul dot_S4000x32_S32x64_S4000x64_1_0_0_1_n_n none x w (constant S4000x64 .f32 0x00000000#32) (ix2 p n)
      = ∑ k : Fin 32, x (ix2 p k) * w (ix2 k n) :=
  PlainDot.matmul_zero_apply dot_S4000x32_S32x64_S4000x64_1_0_0_1_n_n_wf none x w p n

theorem prod_edge (x : FVec Ideal S4000x16 .f32) (w : FVec Ideal S16x64 .f32) (p : Fin 4000) (n : Fin 64) :
    matmul dot_S4000x16_S16x64_S4000x64_1_0_0_1_n_n none x w (constant S4000x64 .f32 0x00000000#32) (ix2 p n)
      = ∑ k : Fin 16, x (ix2 p k) * w (ix2 k n) :=
  PlainDot.matmul_zero_apply dot_S4000x16_S16x64_S4000x64_1_0_0_1_n_n_wf none x w p n

theorem prod_table (x : FVec Ideal S4000x64 .f32) (w : FVec Ideal S64x64 .f32) (p : Fin 4000) (n : Fin 64) :
    matmul dot_S4000x64_S64x64_S4000x64_1_0_0_1_n_n none x w (constant S4000x64 .f32 0x00000000#32) (ix2 p n)
      = ∑ j : Fin 64, x (ix2 p j) * w (ix2 j n) :=
  PlainDot.matmul_zero_apply dot_S4000x64_S64x64_S4000x64_1_0_0_1_n_n_wf none x w p n

theorem prod_out (x : FVec Ideal S4000x64 .f32) (w : FVec Ideal S64x16 .f32) (p : Fin 4000) (o : Fin 16) :
    matmul dot_S4000x64_S64x16_S4000x16_1_0_0_1_n_n none x w (constant S4000x16 .f32 0x00000000#32) (ix2 p o)
      = ∑ n : Fin 64, x (ix2 p n) * w (ix2 n o) :=
  PlainDot.matmul_zero_apply dot_S4000x64_S64x16_S4000x16_1_0_0_1_n_n_wf none x w p o

/-! ## The indicator matrix of the block's graph numbers -/

/-- The indicator matrix as the body builds it: clamp the graph numbers into `[0, 63]`, compare with the row numbers,
    widen the bits and convert them. -/
def indicator (g : IVec S4000x1 32) : FVec Ideal S4000x64 .f32 :=
  sitofp .f32 (extui 32 (cmpi .eq (iota .tc S4000x64 32 [1] iota_S4000x64_d1_w32)
    (broadcastTo S4000x64 (minsi (broadcast S4000x1 63#32) (maxsi (broadcast S4000x1 0#32) g)) broadcasts_S4000x1_S4000x64))
    natLt_1_32)

/-- Entry `(p, j)` of the indicator matrix: `1` when `j` is the row of edge `p`'s graph, else `0`. -/
theorem indicator_apply (g : IVec S4000x1 32) (p : Fin 4000) (j : Fin 64) (hg : InRange (g (ix2 p 0))) :
    indicator g (ix2 p j) = if j = rowOf (g (ix2 p 0)) then (1 : EReal) else 0 := by
  have hio : iota .tc S4000x64 32 [1] iota_S4000x64_d1_w32 (ix2 p j) = BitVec.ofNat 32 j.val :=
    iota_single_apply .tc S4000x64 32 1 iota_S4000x64_d1_w32 (ix2 p j)
  have hbc : broadcastTo S4000x64 (minsi (broadcast S4000x1 63#32) (maxsi (broadcast S4000x1 0#32) g)) broadcasts_S4000x1_S4000x64 (ix2 p j)
      = IntOp.minsi 63#32 (IntOp.maxsi 0#32 (g (ix2 p 0))) :=
    broadcastTo_apply _ broadcasts_S4000x1_S4000x64 (ix2 p j) (ix2 p 0) (fun a => by
      match a with
      | ⟨0, _⟩ => rfl
      | ⟨1, _⟩ => rfl)
  show FloatOps.sitofp (F := Ideal) .f32 ((IntOp.cmpi .eq (iota .tc S4000x64 32 [1] iota_S4000x64_d1_w32 (ix2 p j))
    (broadcastTo S4000x64 (minsi (broadcast S4000x1 63#32) (maxsi (broadcast S4000x1 0#32) g)) broadcasts_S4000x1_S4000x64 (ix2 p j))).setWidth 32) = _
  rw [hio, hbc, clamp_eq hg]
  exact indicator_eq hg j

/-! ## The first payload: the hidden units before the positive part -/

/-- The payload is its tree of operations over the loaded blocks (the shape casts are to the same shape). -/
theorem hidden_eq (g : IVec S4000x1 32) (t : FVec Ideal S64x64 .f32) (xs : FVec Ideal S4000x32 .f32) (ws : FVec Ideal S32x64 .f32)
    (xd : FVec Ideal S4000x32 .f32) (wd : FVec Ideal S32x64 .f32) (xe : FVec Ideal S4000x16 .f32) (we : FVec Ideal S16x64 .f32)
    (bias : FVec Ideal S1x64 .f32) :
    k0_pay2 (F := Ideal) g t xs ws xd wd xe we bias
      = addf (addf (addf (addf (matmul dot_S4000x32_S32x64_S4000x64_1_0_0_1_n_n none xs ws (constant S4000x64 .f32 0x00000000#32))
            (matmul dot_S4000x32_S32x64_S4000x64_1_0_0_1_n_n none xd wd (constant S4000x64 .f32 0x00000000#32)))
          (matmul dot_S4000x16_S16x64_S4000x64_1_0_0_1_n_n none xe we (constant S4000x64 .f32 0x00000000#32)))
        (matmul dot_S4000x64_S64x64_S4000x64_1_0_0_1_n_n none (indicator g) t (constant S4000x64 .f32 0x00000000#32)))
        (broadcastTo S4000x64 bias broadcasts_S1x64_S4000x64) := by
  unfold k0_pay2 indicator
  simp only [shapeCast_self]

/-- Hidden unit `n` of edge `p` of the block, before the positive part. -/
theorem hidden_apply (g : IVec S4000x1 32) (t : FVec Ideal S64x64 .f32) (xs : FVec Ideal S4000x32 .f32) (ws : FVec Ideal S32x64 .f32)
    (xd : FVec Ideal S4000x32 .f32) (wd : FVec Ideal S32x64 .f32) (xe : FVec Ideal S4000x16 .f32) (we : FVec Ideal S16x64 .f32)
    (bias : FVec Ideal S1x64 .f32) (p : Fin 4000) (n : Fin 64) (hg : InRange (g (ix2 p 0))) :
    k0_pay2 (F := Ideal) g t xs ws xd wd xe we bias (ix2 p n)
      = ((((∑ k : Fin 32, xs (ix2 p k) * ws (ix2 k n)) + ∑ k : Fin 32, xd (ix2 p k) * wd (ix2 k n))
          + ∑ k : Fin 16, xe (ix2 p k) * we (ix2 k n)) + t (ix2 (rowOf (g (ix2 p 0))) n)) + bias (ix2 0 n) := by
  rw [hidden_eq]
  have hb : broadcastTo S4000x64 bias broadcasts_S1x64_S4000x64 (ix2 p n) = bias (ix2 0 n) :=
    broadcastTo_apply _ broadcasts_S1x64_S4000x64 (ix2 p n) (ix2 0 n) (fun a => by
      match a with
      | ⟨0, _⟩ => rfl
      | ⟨1, _⟩ => rfl)
  have ht : ∑ j : Fin 64, indicator g (ix2 p j) * t (ix2 j n) = t (ix2 (rowOf (g (ix2 p 0))) n) := by
    rw [← sum_indicator_mul (rowOf (g (ix2 p 0))) (fun j => t (ix2 j n))]
    exact Finset.sum_congr rfl fun j _ => by rw [indicator_apply g p j hg]
  show ((((matmul dot_S4000x32_S32x64_S4000x64_1_0_0_1_n_n none xs ws (constant S4000x64 .f32 0x00000000#32) (ix2 p n)
      + matmul dot_S4000x32_S32x64_S4000x64_1_0_0_1_n_n none xd wd (constant S4000x64 .f32 0x00000000#32) (ix2 p n))
      + matmul dot_S4000x16_S16x64_S4000x64_1_0_0_1_n_n none xe we (constant S4000x64 .f32 0x00000000#32) (ix2 p n))
      + matmul dot_S4000x64_S64x64_S4000x64_1_0_0_1_n_n none (indicator g) t (constant S4000x64 .f32 0x00000000#32) (ix2 p n))
      + broadcastTo S4000x64 bias broadcasts_S1x64_S4000x64 (ix2 p n) : EReal) = _
  rw [prod_node, prod_node, prod_edge, prod_table, ht, hb]

/-! ## The second payload: the positive part and the second layer -/

/-- The zero the positive part compares with. -/
theorem zero_apply (i : S4000x64.Idx) : k0_pay3 (F := Ideal) i = 0 := by
  show Ideal.ofBits .f32 0x00000000#32 = 0
  exact Ideal.ofBits_zero_f32

/-- Output `o` of edge `p` of the block from its hidden units. -/
theorem out_apply (h z : FVec Ideal S4000x64 .f32) (w2 : FVec Ideal S64x16 .f32) (bias2 : FVec Ideal S1x16 .f32) (p : Fin 4000) (o : Fin 16) :
    k0_pay1 (F := Ideal) h z w2 bias2 (ix2 p o) = (∑ n : Fin 64, max (h (ix2 p n)) (z (ix2 p n)) * w2 (ix2 n o)) + bias2 (ix2 0 o) := by
  have e : k0_pay1 (F := Ideal) h z w2 bias2
      = addf (matmul dot_S4000x64_S64x16_S4000x16_1_0_0_1_n_n none (maximumf h z) w2 (constant S4000x16 .f32 0x00000000#32))
          (broadcastTo S4000x16 bias2 broadcasts_S1x16_S4000x16) := by
    unfold k0_pay1
    simp only [shapeCast_self]
  have hb : broadcastTo S4000x16 bias2 broadcasts_S1x16_S4000x16 (ix2 p o) = bias2 (ix2 0 o) :=
    broadcastTo_apply _ broadcasts_S1x16_S4000x16 (ix2 p o) (ix2 0 o) (fun a => by
      match a with
      | ⟨0, _⟩ => rfl
      | ⟨1, _⟩ => rfl)
  rw [e]
  show (matmul dot_S4000x64_S64x16_S4000x16_1_0_0_1_n_n none (maximumf h z) w2 (constant S4000x16 .f32 0x00000000#32) (ix2 p o)
      + broadcastTo S4000x16 bias2 broadcasts_S1x16_S4000x16 (ix2 p o) : EReal) = _
  rw [prod_out, hb]
  rfl

/-! ## The block -/

/-- THE BLOCK'S OUTPUT, entry `(p, o)`, from the eleven loaded blocks: the network of edge `p` with the table's row
    `rowOf (g p)` in the place of the condition row's contribution. -/
theorem block_apply (xs xd : FVec Ideal S4000x32 .f32) (xe : FVec Ideal S4000x16 .f32) (g : IVec S4000x1 32)
    (ws wd : FVec Ideal S32x64 .f32) (we : FVec Ideal S16x64 .f32) (t : FVec Ideal S64x64 .f32) (bias : FVec Ideal S1x64 .f32)
    (w2 : FVec Ideal S64x16 .f32) (bias2 : FVec Ideal S1x16 .f32) (p : Fin 4000) (o : Fin 16) (hg : InRange (g (ix2 p 0))) :
    k0_pay1 (F := Ideal) (k0_pay2 g t xs ws xd wd xe we bias) k0_pay3 w2 bias2 (ix2 p o)
      = (∑ n : Fin 64, max (((((∑ k : Fin 32, xs (ix2 p k) * ws (ix2 k n)) + ∑ k : Fin 32, xd (ix2 p k) * wd (ix2 k n))
            + ∑ k : Fin 16, xe (ix2 p k) * we (ix2 k n)) + t (ix2 (rowOf (g (ix2 p 0))) n)) + bias (ix2 0 n)) 0 * w2 (ix2 n o))
        + bias2 (ix2 0 o) := by
  rw [out_apply]
  congr 1
  refine Finset.sum_congr rfl fun n _ => ?_
  rw [hidden_apply g t xs ws xd wd xe we bias p n hg, zero_apply]

end EdgeNet.Block

end
-- ==== Proof.LibLayoutReads.lean ====
/-
  Three re-layings read at an entry: a block of rows of a matrix, a vector laid as a column, a vector laid as a row.
-/
import Idealize.ShloMosaic.Lib.Pipeline.Value
import Idealize.ShloMosaic.Lib.ValueIdx

noncomputable section

namespace LayoutReads

open Idealize.ShloMosaic Idealize.ShloMosaic.ValueIdx

/-- The block of `M'` rows starting at row `off`, read at `(r, q)`: the matrix at `(off + r, q)`. -/
theorem rowSlice_apply {α : Type} {M M' C off : Nat} (h : (⟨2, ![M, C]⟩ : Shape).Slices ![off, 0] ⟨2, ![M', C]⟩)
    (x : (⟨2, ![M, C]⟩ : Shape).Idx → α) (r : Fin M') (q : Fin C) (hr : off + r.val < M) :
    extractStridedSlice ⟨2, ![M', C]⟩ ![off, 0] x h (ix2 r q) = x (ix2 ⟨off + r.val, hr⟩ q) := by
  unfold extractStridedSlice
  congr 1
  funext a
  match a with
  | ⟨0, _⟩ => rfl
  | ⟨1, _⟩ => exact Fin.ext (Nat.zero_add _)

/-- A vector of `N` numbers laid as an `[N, 1]` column: entry `(e, 0)` is number `e`. -/
theorem column_apply {α : Type} {N : Nat} (x : (⟨1, ![N]⟩ : Shape).Idx → α)
    (h : (⟨1, ![N]⟩ : Shape).ShapeCasts ⟨2, ![N, 1]⟩) (e : Fin N) :
    shapeCast ⟨2, ![N, 1]⟩ x h (ix2 e 0) = x (ix1 e) :=
  shapeCast_apply x h (ix2 e 0) (ix1 e) (by
    rw [Shape.rowMajor_val_one, Shape.rowMajor_val_two]
    show e.val = e.val * 1 + 0
    omega)

/-- A vector of `N` numbers laid as a `[1, N]` row: entry `(0, n)` is number `n`. -/
theorem row_apply {α : Type} {N : Nat} (x : (⟨1, ![N]⟩ : Shape).Idx → α)
    (h : (⟨1, ![N]⟩ : Shape).ShapeCasts ⟨2, ![1, N]⟩) (n : Fin N) :
    shapeCast ⟨2, ![1, N]⟩ x h (ix2 0 n) = x (ix1 n) :=
  shapeCast_apply x h (ix2 0 n) (ix1 n) (by
    rw [Shape.rowMajor_val_one, Shape.rowMajor_val_two]
    show n.val = 0 * N + n.val
    omega)

end LayoutReads

end
-- ==== Proof.KernelValue.lean ====
/-
  The kernel's output array is the network of its arguments.

  The grid has 250 points; point `t` works on edges `4000 t … 4000 t + 3999`: it is handed rows `4000 t + p` of the three
  feature arrays and of the graph numbers (laid as a column), and, whole, the three groups of rows of `W1`, the table
  `T = u · W1[80:96]`, the two biases (laid as rows) and `W2`. Row `r` of the table is what condition row `r`
  contributes to the hidden units, so by the block's formula what point `t` writes back is rows
  `4000 t … 4000 t + 3999` of the network's output; and the 250 blocks cover the output array.
-/
import proofs.«425293_j32169305047409_3_alg».proof.Proof.Gen.KernelIdeal.Value
import proofs.«425293_j32169305047409_3_alg».proof.Proof.KernelBlock
import proofs.«425293_j32169305047409_3_alg».proof.Proof.LibLayoutReads
import Idealize.ShloMosaic.Lib.StableHlo.Run
import Idealize.ShloMosaic.Lib.Pipeline.Value

set_option maxRecDepth 16384

noncomputable section

open scoped BigOperators

namespace EdgeNet.Kernel

open Cert.KernelIdeal Cert.KernelIdeal.Gen Idealize.ShloMosaic Idealize.ShloMosaic.TcCoe Idealize.SL.Sem
open Idealize.ShloMosaic.StableHlo Idealize.ShloMosaic.ValueIdx EdgeNet
open Idealize.ShloMosaic.Pipeline (Dat)

variable (m : (ℓ : Loc nD τ sig) → Buf (Elt Ideal) ℓ) (ρ : Dev nD → PrngReg)

/-! ## The nine argument arrays on core `c`, at their literal types -/

abbrev src (c : Dev nD) : FVec Ideal S1000000x32 .f32 := m ((c : Thread nD τ).loc main_arg0)
abbrev dest (c : Dev nD) : FVec Ideal S1000000x32 .f32 := m ((c : Thread nD τ).loc main_arg1)
abbrev edge (c : Dev nD) : FVec Ideal S1000000x16 .f32 := m ((c : Thread nD τ).loc main_arg2)
abbrev cond (c : Dev nD) : FVec Ideal S64x16 .f32 := m ((c : Thread nD τ).loc main_arg3)
abbrev graph (c : Dev nD) : IVec S1000000 32 := m ((c : Thread nD τ).loc main_arg4)
abbrev w1 (c : Dev nD) : FVec Ideal S96x64 .f32 := m ((c : Thread nD τ).loc main_arg5)
abbrev bias1 (c : Dev nD) : FVec Ideal S64 .f32 := m ((c : Thread nD τ).loc main_arg6)
abbrev w2 (c : Dev nD) : FVec Ideal S64x16 .f32 := m ((c : Thread nD τ).loc main_arg7)
abbrev bias2 (c : Dev nD) : FVec Ideal S16 .f32 := m ((c : Thread nD τ).loc main_arg8)

/-- The network's output on core `c`'s arguments. -/
abbrev result (c : Dev nD) : FVec Ideal S1000000x16 .f32 :=
  net (src m c) (dest m c) (edge m c) (cond m c) (graph m c) (w1 m c) (bias1 m c) (w2 m c) (bias2 m c)

/-! ## The arrays the operations before the grid write -/

theorem graphColumn_eq (c : Dev nD) :
    (V m c main_v0 : S1000000x1.Idx → BitVec 32) = shapeCast S1000000x1 (graph m c) shapeCasts_S1000000_S1000000x1 := by
  dsimp only [Gen.V, Gen.hostOps0]; after_results; rfl

theorem w1Src_eq (c : Dev nD) :
    (V m c main_v1 : S32x64.Idx → Ideal .f32) = extractStridedSlice S32x64 ![0, 0] (w1 m c) slices_S96x64_S32x64_0_0 := by
  dsimp only [Gen.V, Gen.hostOps0]; after_results

theorem w1Dest_eq (c : Dev nD) :
    (V m c main_v2 : S32x64.Idx → Ideal .f32) = extractStridedSlice S32x64 ![32, 0] (w1 m c) slices_S96x64_S32x64_32_0 := by
  dsimp only [Gen.V, Gen.hostOps0]; after_results

theorem w1Edge_eq (c : Dev nD) :
    (V m c main_v3 : S16x64.Idx → Ideal .f32) = extractStridedSlice S16x64 ![64, 0] (w1 m c) slices_S96x64_S16x64_64_0 := by
  dsimp only [Gen.V, Gen.hostOps0]; after_results

theorem table_eq (c : Dev nD) :
    (V m c main_v5 : S64x64.Idx → Ideal .f32)
      = Host.dotGeneral dot_S64x16_S16x64_S64x64_1_0_0_1_n_n (some .fp32) (cond m c)
          (extractStridedSlice S16x64 ![80, 0] (w1 m c) slices_S96x64_S16x64_80_0) := by
  dsimp only [Gen.V, Gen.hostOps0]; after_results

theorem bias1Row_eq (c : Dev nD) :
    (V m c main_v6 : S1x64.Idx → Ideal .f32) = shapeCast S1x64 (bias1 m c) shapeCasts_S64_S1x64 := by
  dsimp only [Gen.V, Gen.hostOps0]; after_results; rfl

theorem bias2Row_eq (c : Dev nD) :
    (V m c main_v7 : S1x16.Idx → Ideal .f32) = shapeCast S1x16 (bias2 m c) shapeCasts_S16_S1x16 := by
  dsimp only [Gen.V, Gen.hostOps0]; after_results; rfl

/-- Row `r` of the table is what condition row `r` contributes to the hidden units. -/
theorem table_apply (c : Dev nD) (r n : Fin 64) :
    (V m c main_v5 : S64x64.Idx → Ideal .f32) (ix2 r n) = condTerm (cond m c) (w1 m c) r n := by
  rw [table_eq]
  refine (PlainDot.dotGeneral_apply dot_S64x16_S16x64_S64x64_1_0_0_1_n_n_wf (some .fp32) (cond m c) _ r n).trans ?_
  unfold condTerm
  refine Finset.sum_congr rfl fun k _ => ?_
  rw [LayoutReads.rowSlice_apply slices_S96x64_S16x64_80_0 (w1 m c) k n (by have := k.isLt; omega)]

/-! ## Which rows a grid point is handed -/

/-- The windows that move with the grid are at row-block `t`, column-block 0, at point `t` (decided over the 250 points). -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0 :=
  (by decide +kernel : ∀ t : Fin grid0.N, _)

/-- The other windows are their whole arrays at every point. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem pt_lt (t : Fin cfg0.N) : t.val < 250 := lt_of_lt_of_eq t.isLt N_0

/-- The edge in row `p` of point `t`'s blocks. -/
def edgeAt (t : Fin cfg0.N) (p : Fin 4000) : Fin 1000000 :=
  ⟨t.val * 4000 + p.val, by have := pt_lt t; have := p.isLt; omega⟩

/-! ## The eleven blocks of a point, entry by entry, in the arguments -/

theorem blk_src (c : Dev nD) (t : Fin cfg0.N) (p : Fin 4000) (k : Fin 32) :
    iblk m c 0 t (ix2 p k) = src m c (ix2 (edgeAt t p) k) := by
  obtain ⟨e0, e1, -⟩ := idx_moving t
  have he : ((cfg0.win 0).blk t).view.emb (ix2 p k) = ix2 (edgeAt t p) k := funext fun a => Fin.ext (by
    match a with
    | ⟨0, _⟩ => show win0_0.index t (0 : Fin 2) * 4000 + 1 * p.val = t.val * 4000 + p.val; rw [e0]; omega
    | ⟨1, _⟩ => show win0_0.index t (1 : Fin 2) * 32 + 1 * k.val = k.val; rw [e1]; omega)
  show V m c main_arg0 (((cfg0.win 0).blk t).view.emb (ix2 p k)) = _
  rw [he]
  exact congrFun (V_main_arg0 m c) _

theorem blk_dest (c : Dev nD) (t : Fin cfg0.N) (p : Fin 4000) (k : Fin 32) :
    iblk m c 1 t (ix2 p k) = dest m c (ix2 (edgeAt t p) k) := by
  obtain ⟨-, -, e0, e1, -⟩ := idx_moving t
  have he : ((cfg0.win 1).blk t).view.emb (ix2 p k) = ix2 (edgeAt t p) k := funext fun a => Fin.ext (by
    match a with
    | ⟨0, _⟩ => show win0_1.index t (0 : Fin 2) * 4000 + 1 * p.val = t.val * 4000 + p.val; rw [e0]; omega
    | ⟨1, _⟩ => show win0_1.index t (1 : Fin 2) * 32 + 1 * k.val = k.val; rw [e1]; omega)
  show V m c main_arg1 (((cfg0.win 1).blk t).view.emb (ix2 p k)) = _
  rw [he]
  exact congrFun (V_main_arg1 m c) _

theorem blk_edge (c : Dev nD) (t : Fin cfg0.N) (p : Fin 4000) (k : Fin 16) :
    iblk m c 2 t (ix2 p k) = edge m c (ix2 (edgeAt t p) k) := by
  obtain ⟨-, -, -, -, e0, e1, -⟩ := idx_moving t
  have he : ((cfg0.win 2).blk t).view.emb (ix2 p k) = ix2 (edgeAt t p) k := funext fun a => Fin.ext (by
    match a with
    | ⟨0, _⟩ => show win0_2.index t (0 : Fin 2) * 4000 + 1 * p.val = t.val * 4000 + p.val; rw [e0]; omega
    | ⟨1, _⟩ => show win0_2.index t (1 : Fin 2) * 16 + 1 * k.val = k.val; rw [e1]; omega)
  show V m c main_arg2 (((cfg0.win 2).blk t).view.emb (ix2 p k)) = _
  rw [he]
  exact congrFun (V_main_arg2 m c) _

theorem blk_graph (c : Dev nD) (t : Fin cfg0.N) (p : Fin 4000) :
    iblk m c 3 t (ix2 p 0) = graph m c (ix1 (edgeAt t p)) := by
  obtain ⟨-, -, -, -, -, -, e0, e1, -⟩ := idx_moving t
  have he : ((cfg0.win 3).blk t).view.emb (ix2 p (0 : Fin 1)) = ix2 (edgeAt t p) (0 : Fin 1) := funext fun a => Fin.ext (by
    match a with
    | ⟨0, _⟩ => show win0_3.index t (0 : Fin 2) * 4000 + 1 * p.val = t.val * 4000 + p.val; rw [e0]; omega
    | ⟨1, _⟩ => show win0_3.index t (1 : Fin 2) * 1 + 1 * 0 = 0; rw [e1])
  show (V m c main_v0 : S1000000x1.Idx → BitVec 32) (((cfg0.win 3).blk t).view.emb (ix2 p 0)) = _
  rw [he, graphColumn_eq]
  exact LayoutReads.column_apply (graph m c) shapeCasts_S1000000_S1000000x1 (edgeAt t p)

theorem blk_w1Src (c : Dev nD) (t : Fin cfg0.N) (k : Fin 32) (n : Fin 64) :
    iblk m c 4 t (ix2 k n) = w1 m c (ix2 (wSrc k) n) := by
  obtain ⟨e0, e1, -⟩ := idx_whole t
  have he : ((cfg0.win 4).blk t).view.emb (ix2 k n) = ix2 k n := funext fun a => Fin.ext (by
    match a with
    | ⟨0, _⟩ => show win0_4.index t (0 : Fin 2) * 32 + 1 * k.val = k.val; rw [e0]; omega
    | ⟨1, _⟩ => show win0_4.index t (1 : Fin 2) * 64 + 1 * n.val = n.val; rw [e1]; omega)
  show (V m c main_v1 : S32x64.Idx → Ideal .f32) (((cfg0.win 4).blk t).view.emb (ix2 k n)) = _
  rw [he, w1Src_eq]
  refine (LayoutReads.rowSlice_apply slices_S96x64_S32x64_0_0 (w1 m c) k n (by have := k.isLt; omega)).trans ?_
  exact congrArg (fun r => w1 m c (ix2 r n)) (Fin.ext (Nat.zero_add _))

theorem blk_w1Dest (c : Dev nD) (t : Fin cfg0.N) (k : Fin 32) (n : Fin 64) :
    iblk m c 5 t (ix2 k n) = w1 m c (ix2 (wDest k) n) := by
  obtain ⟨-, -, e0, e1, -⟩ := idx_whole t
  have he : ((cfg0.win 5).blk t).view.emb (ix2 k n) = ix2 k n := funext fun a => Fin.ext (by
    match a with
    | ⟨0, _⟩ => show win0_5.index t (0 : Fin 2) * 32 + 1 * k.val = k.val; rw [e0]; omega
    | ⟨1, _⟩ => show win0_5.index t (1 : Fin 2) * 64 + 1 * n.val = n.val; rw [e1]; omega)
  show (V m c main_v2 : S32x64.Idx → Ideal .f32) (((cfg0.win 5).blk t).view.emb (ix2 k n)) = _
  rw [he, w1Dest_eq]
  exact LayoutReads.rowSlice_apply slices_S96x64_S32x64_32_0 (w1 m c) k n (by have := k.isLt; omega)

theorem blk_w1Edge (c : Dev nD) (t : Fin cfg0.N) (k : Fin 16) (n : Fin 64) :
    iblk m c 6 t (ix2 k n) = w1 m c (ix2 (wEdge k) n) := by
  obtain ⟨-, -, -, -, e0, e1, -⟩ := idx_whole t
  have he : ((cfg0.win 6).blk t).view.emb (ix2 k n) = ix2 k n := funext fun a => Fin.ext (by
    match a with
    | ⟨0, _⟩ => show win0_6.index t (0 : Fin 2) * 16 + 1 * k.val = k.val; rw [e0]; omega
    | ⟨1, _⟩ => show win0_6.index t (1 : Fin 2) * 64 + 1 * n.val = n.val; rw [e1]; omega)
  show (V m c main_v3 : S16x64.Idx → Ideal .f32) (((cfg0.win 6).blk t).view.emb (ix2 k n)) = _
  rw [he, w1Edge_eq]
  exact LayoutReads.rowSlice_apply slices_S96x64_S16x64_64_0 (w1 m c) k n (by have := k.isLt; omega)

theorem blk_table (c : Dev nD) (t : Fin cfg0.N) (r n : Fin 64) :
    iblk m c 7 t (ix2 r n) = condTerm (cond m c) (w1 m c) r n := by
  obtain ⟨-, -, -, -, -, -, e0, e1, -⟩ := idx_whole t
  have he : ((cfg0.win 7).blk t).view.emb (ix2 r n) = ix2 r n := funext fun a => Fin.ext (by
    match a with
    | ⟨0, _⟩ => show win0_7.index t (0 : Fin 2) * 64 + 1 * r.val = r.val; rw [e0]; omega
    | ⟨1, _⟩ => show win0_7.index t (1 : Fin 2) * 64 + 1 * n.val = n.val; rw [e1]; omega)
  show (V m c main_v5 : S64x64.Idx → Ideal .f32) (((cfg0.win 7).blk t).view.emb (ix2 r n)) = _
  rw [he]
  exact table_apply m c r n

theorem blk_bias1 (c : Dev nD) (t : Fin cfg0.N) (n : Fin 64) :
    iblk m c 8 t (ix2 0 n) = bias1 m c (ix1 n) := by
  obtain ⟨-, -, -, -, -, -, -, -, e0, e1, -⟩ := idx_whole t
  have he : ((cfg0.win 8).blk t).view.emb (ix2 (0 : Fin 1) n) = ix2 (0 : Fin 1) n := funext fun a => Fin.ext (by
    match a with
    | ⟨0, _⟩ => show win0_8.index t (0 : Fin 2) * 1 + 1 * 0 = 0; rw [e0]
    | ⟨1, _⟩ => show win0_8.index t (1 : Fin 2) * 64 + 1 * n.val = n.val; rw [e1]; omega)
  show (V m c main_v6 : S1x64.Idx → Ideal .f32) (((cfg0.win 8).blk t).view.emb (ix2 0 n)) = _
  rw [he, bias1Row_eq]
  exact LayoutReads.row_apply (bias1 m c) shapeCasts_S64_S1x64 n

theorem blk_w2 (c : Dev nD) (t : Fin cfg0.N) (n : Fin 64) (o : Fin 16) :
    iblk m c 9 t (ix2 n o) = w2 m c (ix2 n o) := by
  obtain ⟨-, -, -, -, -, -, -, -, -, -, e0, e1, -⟩ := idx_whole t
  have he : ((cfg0.win 9).blk t).view.emb (ix2 n o) = ix2 n o := funext fun a => Fin.ext (by
    match a with
    | ⟨0, _⟩ => show win0_9.index t (0 : Fin 2) * 64 + 1 * n.val = n.val; rw [e0]; omega
    | ⟨1, _⟩ => show win0_9.index t (1 : Fin 2) * 16 + 1 * o.val = o.val; rw [e1]; omega)
  show V m c main_arg7 (((cfg0.win 9).blk t).view.emb (ix2 n o)) = _
  rw [he]
  exact congrFun (V_main_arg7 m c) _

theorem blk_bias2 (c : Dev nD) (t : Fin cfg0.N) (o : Fin 16) :
    iblk m c 10 t (ix2 0 o) = bias2 m c (ix1 o) := by
  obtain ⟨-, -, -, -, -, -, -, -, -, -, -, -, e0, e1⟩ := idx_whole t
  have he : ((cfg0.win 10).blk t).view.emb (ix2 (0 : Fin 1) o) = ix2 (0 : Fin 1) o := funext fun a => Fin.ext (by
    match a with
    | ⟨0, _⟩ => show win0_10.index t (0 : Fin 2) * 1 + 1 * 0 = 0; rw [e0]
    | ⟨1, _⟩ => show win0_10.index t (1 : Fin 2) * 16 + 1 * o.val = o.val; rw [e1]; omega)
  show (V m c main_v7 : S1x16.Idx → Ideal .f32) (((cfg0.win 10).blk t).view.emb (ix2 0 o)) = _
  rw [he, bias2Row_eq]
  exact LayoutReads.row_apply (bias2 m c) shapeCasts_S16_S1x16 o

/-! ## What a point writes back -/

/-- WHAT POINT `t` WRITES BACK is rows `4000 t … 4000 t + 3999` of the network's output, when every graph number is in range. -/
theorem flushed_eq (c : Dev nD) (hb : ∀ e : Fin 1000000, InRange (graph m c (ix1 e))) (t : Fin cfg0.N) :
    (dats m 0 c).flushed 11 t = ((cfg0.win 11).blk t).view.read (Elt Ideal) (result m c) := by
  have hz : (![0, 0] : Fin 2 → Nat) = fun _ => 0 := funext fun a => by fin_cases a <;> rfl
  rw [Cert.KernelIdeal.Value.flushed11]
  unfold out0_11
  rw [View.canon_unit_zero hz]
  simp only [View.ld_unit_zero (S := S4000x1) hz, View.ld_unit_zero (S := S64x64) hz, View.ld_unit_zero (S := S4000x32) hz,
    View.ld_unit_zero (S := S32x64) hz, View.ld_unit_zero (S := S4000x16) hz, View.ld_unit_zero (S := S16x64) hz,
    View.ld_unit_zero (S := S1x64) hz, View.ld_unit_zero (S := S64x16) hz, View.ld_unit_zero (S := S1x16) hz]
  funext y
  obtain ⟨p, o, rfl⟩ : ∃ (p : Fin 4000) (o : Fin 16), y = ix2 p o := ⟨y 0, y 1, eq_ix2 y⟩
  obtain ⟨-, -, -, -, -, -, -, -, e0, e1⟩ := idx_moving t
  have he : ((cfg0.win 11).blk t).view.emb (ix2 p o) = ix2 (edgeAt t p) o := funext fun a => Fin.ext (by
    match a with
    | ⟨0, _⟩ => show win0_11.index t (0 : Fin 2) * 4000 + 1 * p.val = t.val * 4000 + p.val; rw [e0]; omega
    | ⟨1, _⟩ => show win0_11.index t (1 : Fin 2) * 16 + 1 * o.val = o.val; rw [e1]; omega)
  show k0_pay1 (F := Ideal) (k0_pay2 (iblk m c 3 t) (iblk m c 7 t) (iblk m c 0 t) (iblk m c 4 t) (iblk m c 1 t) (iblk m c 5 t)
      (iblk m c 2 t) (iblk m c 6 t) (iblk m c 8 t)) k0_pay3 (iblk m c 9 t) (iblk m c 10 t) (ix2 p o)
    = result m c (((cfg0.win 11).blk t).view.emb (ix2 p o))
  rw [he]
  have hg : InRange (iblk m c 3 t (ix2 p 0)) := by rw [blk_graph]; exact hb _
  refine (Block.block_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p o hg).trans ?_
  simp only [blk_src, blk_dest, blk_edge, blk_graph, blk_w1Src, blk_w1Dest, blk_w1Edge, blk_table, blk_bias1, blk_w2, blk_bias2]
  rfl

/-! ## The blocks cover the output array -/

theorem cover (i : S1000000x16.Idx) :
    ∃ t : Fin cfg0.N, (cfg0.win 11).flush t = true ∧ i ∈ ((cfg0.win 11).blk t).view.set := by
  have hi0 : (i 0).val < 1000000 := (i 0).isLt
  have hi1 : (i 1).val < 16 := (i 1).isLt
  have ht : (i 0).val / 4000 < cfg0.N := lt_of_lt_of_eq (by omega : (i 0).val / 4000 < 250) N_0.symm
  refine ⟨⟨(i 0).val / 4000, ht⟩, flush0_11 _, ?_⟩
  obtain ⟨-, -, -, -, -, -, -, -, e0, e1⟩ := idx_moving ⟨(i 0).val / 4000, ht⟩
  show i ∈ ((View.whole main_v8).slice (win0_11.rect ⟨(i 0).val / 4000, ht⟩)).set
  rw [View.set_slice_whole, Rect.mem_set_unit]
  intro a
  match a with
  | ⟨0, _⟩ =>
    show win0_11.index ⟨(i 0).val / 4000, ht⟩ (0 : Fin 2) * 4000 ≤ (i 0).val
      ∧ (i 0).val < win0_11.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_11.index ⟨(i 0).val / 4000, ht⟩ (1 : Fin 2) * 16 ≤ (i 1).val
      ∧ (i 1).val < win0_11.index ⟨(i 0).val / 4000, ht⟩ (1 : Fin 2) * 16 + 16
    rw [e1]
    omega

/-! ## The run -/

/-- The output array after the run is the network's output. -/
theorem final (c : Dev nD) (hb : ∀ e : Fin 1000000, InRange (graph m c (ix1 e))) :
    (dats m 0 c).arrAt 11 cfg0.N = result m c :=
  (dats m 0 c).arrAt_eq_of_cover 11 (result m c) (fun t _ => flushed_eq m c hb t) cover

/-- THE KERNEL'S RUN: it terminates with the result at the network of the arguments, the arguments unchanged. -/
theorem run (hb : ∀ (c : Dev nD) (e : Fin 1000000), InRange (graph m c (ix1 e))) :
    θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hb c)), (h c).2⟩)
    (Cert.KernelIdeal.Value.run_blocks m ρ)

end EdgeNet.Kernel

end
-- ==== Proof.lean ====
/-
  An edge network with a per-graph condition: the tiled kernel and the plain reference compute one function.

  Each of the million edges carries two node feature rows (32 numbers each), an edge feature row (16 numbers) and the
  number of its graph; each of the 64 graphs carries a condition row (16 numbers). The network joins the edge's
  three rows and its graph's condition row into 96 numbers, applies an affine map to 64 hidden units, takes the positive
  part and applies an affine map to 16 outputs (`EdgeNet.net`, Proof/Spec.lean).

  The reference gathers the condition rows, joins and multiplies. The kernel never joins: it splits the first weight
  matrix into its four groups of rows, multiplies the 64 condition rows with their group once, before the grid
  (a 64 × 64 table), and in each block of 4000 edges picks each edge's table row by a product with the indicator matrix
  of the graph numbers. Over the extended reals the two are the same function because a sum over the 96 joined numbers
  is the sum of its four groups, and a sum against an indicator picks one term (`0 * x = 0`, `1 * x = x` for every
  extended real `x`): no finiteness of the inputs is used.

  What is used is the RANGE of the graph numbers, `0 ≤ batch < 64`, which the precondition states. Outside it the two
  programs read different rows: the reference adds 64 to a negative number before it clamps into the table, the kernel
  only clamps, so at `batch = -1` the one reads row 63 and the other row 0.

  Proof/PreDecode.lean reads the range off the precondition; Proof/RefValue.lean shows the reference's result is the
  network; Proof/KernelBlock.lean and Proof/KernelValue.lean show the kernel's is.
-/
import proofs.«425293_j32169305047409_3_alg».proof.Defs
import proofs.«425293_j32169305047409_3_alg».proof.Proof.Gen.Kernel
import proofs.«425293_j32169305047409_3_alg».proof.Proof.Gen.Kernel.Skeleton
import proofs.«425293_j32169305047409_3_alg».proof.Proof.Gen.Kernel.Launch
import proofs.«425293_j32169305047409_3_alg».proof.Proof.Gen.Kernel.Points
import proofs.«425293_j32169305047409_3_alg».proof.Proof.Gen.Kernel.Frame
import proofs.«425293_j32169305047409_3_alg».proof.Proof.Gen.KernelIdeal
import proofs.«425293_j32169305047409_3_alg».proof.Proof.Gen.KernelIdeal.Skeleton
import proofs.«425293_j32169305047409_3_alg».proof.Proof.Gen.KernelIdeal.Launch
import proofs.«425293_j32169305047409_3_alg».proof.Proof.Gen.KernelIdeal.Points
import proofs.«425293_j32169305047409_3_alg».proof.Proof.Gen.KernelIdeal.Frame
import proofs.«425293_j32169305047409_3_alg».proof.Proof.Gen.ReferenceIdeal
import proofs.«425293_j32169305047409_3_alg».proof.Proof.Gen.Pre_finite_inputs
import proofs.«425293_j32169305047409_3_alg».proof.Proof.Gen.KernelIdeal.Value
import proofs.«425293_j32169305047409_3_alg».proof.Proof.Gen.ReferenceIdeal.Run
import proofs.«425293_j32169305047409_3_alg».proof.Proof.Gen.ReferenceIdeal.Read
import proofs.«425293_j32169305047409_3_alg».proof.Proof.PreDecode
import proofs.«425293_j32169305047409_3_alg».proof.Proof.RefValue
import proofs.«425293_j32169305047409_3_alg».proof.Proof.KernelValue
import Idealize.ShloMosaic.Adequacy
import Idealize.ShloMosaic.Init

noncomputable section

namespace Cert.Proof

open Idealize.ShloMosaic Idealize.ShloMosaic.ValueIdx Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the network of their arguments: the precondition puts every
    graph number in range, and on such inputs each side's result is `EdgeNet.net`. -/
theorem algebraic : Cert.algebraic_KernelIdeal_ReferenceIdeal := by
  intro m ρ m' ρ' hpre hagree
  have hb : ∀ (c : Dev Cert.KernelIdeal.nD) (e : Fin 1000000), EdgeNet.InRange (EdgeNet.Kernel.graph m c (ix1 e)) :=
    fun c e => EdgeNet.batch_inRange _ _ _ _ _ _ _ _ _ (hpre c) e
  refine ⟨fun c => EdgeNet.Kernel.result m c, EdgeNet.Kernel.run m ρ hb, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  rw [Cert.ReferenceIdeal.Read.val_main_v16_eq]
  exact EdgeNet.Ref.result_eq_net _ _ _ _ _ _ _ _ _ (hb c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
